-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S512x1024 : Shape := ⟨2, ![512, 1024]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  natLt_1_32 : 1 < 32
  bitsLt_bf16_f32 : FTy.bits .bf16 < FTy.bits .f32
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Finite.lean ====
/-
  What the precondition says, entry by entry.

  The precondition is the conjunction of three statements "every |entry| is below +∞", one per input array.
  On the extended reals |a| < ⊤ rules out both infinities, so each entry of each array is (the inclusion of) a
  real number. That is the only use the certificate makes of the precondition.
-/
import proofs.«170125_j25451976196807_1_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Ternary.Finite

open Idealize.ShloMosaic Cert.Pre_finite_inputs

variable [Cert.Pre_finite_inputs.Facts]
open Cert.Pre_finite_inputs.Facts

/-- The scalar shape has one index. -/
instance : Subsingleton S_.Idx := ⟨fun _ _ => funext fun d => d.elim0⟩

/-- The word 0x7F800000 is +∞. -/
theorem inf_word : Ideal.ofBits .f32 0x7F800000#32 = ⊤ := by simp [Ideal.ofBits, Ideal.ieee]

/-- An extended real whose absolute value is strictly below +∞ is a real number. -/
theorem real_of_abs_lt (a : EReal) (h : Ideal.cmp .olt (max a (-a)) (Ideal.ofBits .f32 0x7F800000#32) = 1#1) :
    ∃ r : ℝ, a = r := by
  rw [inf_word] at h
  unfold Ideal.cmp at h
  induction a using EReal.rec with
  | bot => simp at h
  | top => simp at h
  | coe r => exact ⟨r, rfl⟩

/-- One entry of an array all of whose absolute values compare below the splat of +∞. -/
theorem entry_real {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) : ∃ r : ℝ, a i = r := by
  apply real_of_abs_lt
  have e : broadcastInDim s ![] hb (constant (F := Ideal) S_ .f32 0x7F800000#32) i = Ideal.ofBits .f32 0x7F800000#32 :=
    broadcastInDim_apply _ hb _ i ValueIdx.ix0 (fun d => d.elim0)
  rw [← e]
  exact h

/-- Under the precondition every entry of the three inputs is a real number. -/
theorem reals_of_pre (x : FVec Ideal S8192x4096 .f32) (wp wn : FVec Ideal S4096x4096 .f32)
    (h : fn (F := Ideal) x wp wn = fun _ => 1#1) :
    (∀ i, ∃ r : ℝ, x i = r) ∧ (∀ i, ∃ r : ℝ, wp i = r) ∧ (∀ i, ∃ r : ℝ, wn i = r) := by
  have h0 := congrFun h ValueIdx.ix0
  dsimp only [fn] at h0
  obtain ⟨h01, h2⟩ := IntOp.andi_eq_one.1 h0
  obtain ⟨h0', h1⟩ := IntOp.andi_eq_one.1 h01
  exact ⟨fun i => entry_real _ x i (Host.reduce_andi_all _ _ _ _ _ h0' i),
    fun i => entry_real _ wp i (Host.reduce_andi_all _ _ _ _ _ h1 i),
    fun i => entry_real _ wn i (Host.reduce_andi_all _ _ _ _ _ h2 i)⟩

end Cert.Ternary.Finite

end
-- ==== Proof.Spec.lean ====
/-
  The mathematics of the ternary linear layer, with no program in sight.

  For an activation matrix x : [8192, 4096] and two weight matrices w⁺, w⁻ : [4096, 4096], write
  pos w = 1 if w > 0 and 0 otherwise. The layer's value at row t and output column o is

      y t o = ∑ i, x t i · (pos (w⁺ o i) − pos (w⁻ o i)).

  One program reaches it as a single contraction against the ternary matrix pos w⁺ − pos w⁻, the contraction
  axis cut into four runs of 1024. The other forms (pos w − w) + w for each weight matrix, contracts x against
  each, and subtracts. On the extended reals the two agree exactly when every entry is a real number:
  (b − w) + w = b needs w finite, and ∑ x·p − ∑ x·n = ∑ x·(p − n) needs the products finite.
-/
import Idealize.ShloMosaic.PureOps.Ideal
import Idealize.ShloMosaic.PureOps.Ideal.Laws
import Idealize.ShloMosaic.Lib.ValueIdx
import Mathlib.Algebra.BigOperators.Fin
import Mathlib.Data.EReal.Operations

noncomputable section

open scoped BigOperators

namespace Cert.Ternary

open Idealize.ShloMosaic Idealize.ShloMosaic.ValueIdx

/-- The activations' shape and the weights' shape. -/
abbrev SX : Shape := ⟨2, ![8192, 4096]⟩
abbrev SW : Shape := ⟨2, ![4096, 4096]⟩

/-- The indicator of strict positivity, as an extended real. -/
def pos (w : EReal) : EReal := if 0 < w then 1 else 0

/-- The indicator of a real number is a real number. -/
theorem pos_coe (w : ℝ) : pos (w : EReal) = ((if 0 < w then 1 else 0 : ℝ) : EReal) := by
  unfold pos
  by_cases h : 0 < w
  · rw [if_pos (EReal.coe_pos.mpr h), if_pos h]; rfl
  · rw [if_neg (fun h' => h (EReal.coe_pos.mp h')), if_neg h]; rfl

/-- The layer's value at row `t`, column `o`. -/
def entry (x : SX.Idx → EReal) (wp wn : SW.Idx → EReal) (t : Fin 8192) (o : Fin 4096) : EReal :=
  ∑ i : Fin 4096, x (ix2 t i) * (pos (wp (ix2 o i)) - pos (wn (ix2 o i)))

/-- The layer's value as one array. -/
def layer (x : SX.Idx → EReal) (wp wn : SW.Idx → EReal) : SX.Idx → EReal :=
  fun j => entry x wp wn (j 0) (j 1)

/-! ## The comparison's word, read as a number -/

/-- A one-bit "greater than zero", widened to 32 bits and read as a signed integer, is the indicator. -/
theorem pos_of_signed (w : EReal) :
    ((((Ideal.cmp .ogt w 0).setWidth 32).toInt : ℝ) : EReal) = pos w := by
  unfold Ideal.cmp pos
  by_cases h : (0 : EReal) < w
  · simp [h]
  · simp [h]

/-- The same bit read as an unsigned integer is the indicator too. -/
theorem pos_of_unsigned (w : EReal) :
    (((Ideal.cmp .ogt w 0).toNat : ℝ) : EReal) = pos w := by
  unfold Ideal.cmp pos
  by_cases h : (0 : EReal) < w
  · simp [h]
  · simp [h]

/-! ## Sums of real numbers inside the extended reals -/

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting and adding back a real number changes nothing. -/
theorem sub_add_self_coe (b w : ℝ) : ((b : EReal) - (w : EReal)) + (w : EReal) = (b : EReal) := by
  rw [← EReal.coe_sub, ← EReal.coe_add, sub_add_cancel]

/-- Over real numbers a difference of two contractions against one vector is the contraction against the difference. -/
theorem sum_mul_sub {ι : Type*} [Fintype ι] (x p n : ι → ℝ) :
    (∑ i, (x i : EReal) * (p i : EReal)) - (∑ i, (x i : EReal) * (n i : EReal))
      = ∑ i, (x i : EReal) * ((p i : EReal) - (n i : EReal)) := by
  simp only [← EReal.coe_mul, ← EReal.coe_sub, ← coe_sum]
  congr 1
  rw [← Finset.sum_sub_distrib]
  exact Finset.sum_congr rfl fun i _ => by ring

/-! ## The two-contraction form is the layer, on finite inputs -/

/-- With every entry a real number, contracting `x` against `(pos w⁺ − w⁺) + w⁺` and against `(pos w⁻ − w⁻) + w⁻` and
    subtracting gives the layer's value. -/
theorem two_contractions (x : SX.Idx → EReal) (wp wn : SW.Idx → EReal)
    (hx : ∀ i, ∃ r : ℝ, x i = r) (hp : ∀ i, ∃ r : ℝ, wp i = r) (hn : ∀ i, ∃ r : ℝ, wn i = r)
    (t : Fin 8192) (o : Fin 4096) :
    (∑ i : Fin 4096, x (ix2 t i) * ((pos (wp (ix2 o i)) - wp (ix2 o i)) + wp (ix2 o i)))
      - (∑ i : Fin 4096, x (ix2 t i) * ((pos (wn (ix2 o i)) - wn (ix2 o i)) + wn (ix2 o i)))
      = entry x wp wn t o := by
  choose xr hxr using hx
  choose pr hpr using hp
  choose nr hnr using hn
  unfold entry
  simp only [hxr, hpr, hnr, pos_coe, sub_add_self_coe]
  exact sum_mul_sub _ _ _

/-! ## The contraction axis in four runs -/

/-- A sum over 4096 terms is the sum over four runs of 1024 consecutive terms. -/
theorem sum_four_runs {M : Type*} [AddCommMonoid M] (f : Fin 4096 → M) :
    ∑ i, f i = ∑ s : Fin 4, ∑ l : Fin 1024, f ⟨1024 * s.val + l.val, by have := s.isLt; have := l.isLt; omega⟩ := by
  rw [← Fintype.sum_prod_type']
  refine (Fintype.sum_equiv (finProdFinEquiv (m := 4) (n := 1024)) _ _ fun a => ?_).symm
  refine congrArg f (Fin.ext ?_)
  show 1024 * a.1.val + a.2.val = a.2.val + 1024 * a.1.val
  omega

/-! ## Entries by natural-number coordinates -/

/-- A rank-2 array read at two natural numbers (zero outside the array): coordinates that are sums and quotients can
    then be compared as numbers. -/
def at2 {n0 n1 : Nat} (a : (⟨2, ![n0, n1]⟩ : Shape).Idx → EReal) (r k : Nat) : EReal :=
  if h : r < n0 ∧ k < n1 then a (ix2 ⟨r, h.1⟩ ⟨k, h.2⟩) else 0

theorem at2_of_lt {n0 n1 : Nat} (a : (⟨2, ![n0, n1]⟩ : Shape).Idx → EReal) (r k : Nat) (hr : r < n0) (hk : k < n1) :
    at2 a r k = a (ix2 ⟨r, hr⟩ ⟨k, hk⟩) := dif_pos ⟨hr, hk⟩

theorem at2_ix2 {n0 n1 : Nat} (a : (⟨2, ![n0, n1]⟩ : Shape).Idx → EReal) (r : Fin n0) (k : Fin n1) :
    a (ix2 r k) = at2 a r.val k.val := (at2_of_lt a r.val k.val r.isLt k.isLt).symm

/-- The layer's entry with its contraction axis cut into four runs of 1024. -/
theorem entry_runs (x : SX.Idx → EReal) (wp wn : SW.Idx → EReal) (t : Fin 8192) (o : Fin 4096) :
    entry x wp wn t o = ∑ s ∈ Finset.range 4, ∑ l : Fin 1024,
      at2 x t.val (1024 * s + l.val) * (pos (at2 wp o.val (1024 * s + l.val)) - pos (at2 wn o.val (1024 * s + l.val))) := by
  unfold entry
  rw [sum_four_runs, Finset.sum_range]
  refine Finset.sum_congr rfl fun s _ => Finset.sum_congr rfl fun l _ => ?_
  have hk : 1024 * s.val + l.val < 4096 := by have := s.isLt; have := l.isLt; omega
  rw [at2_of_lt x _ _ t.isLt hk, at2_of_lt wp _ _ o.isLt hk, at2_of_lt wn _ _ o.isLt hk]

end Cert.Ternary

end
-- ==== Proof.RefLayer.lean ====
/-
  The reference computes the layer, on finite inputs.

  Entry by entry the reference's weight stage is (pos w − w) + w (the comparison's bit read as an unsigned integer is
  the indicator), each of its two contractions is the plain sum over the shared second axis, and the result is their
  difference. With every entry a real number that difference is the layer's entry.
-/
import proofs.«170125_j25451976196807_1_alg».proof.Proof.Spec
import proofs.«170125_j25451976196807_1_alg».proof.Proof.Gen.ReferenceIdeal.Read

noncomputable section

open scoped BigOperators
open Idealize.ShloMosaic Idealize.ShloMosaic.ValueIdx

namespace Cert.ReferenceIdeal.Layer

open Cert.ReferenceIdeal Cert.ReferenceIdeal.Gen Cert.ReferenceIdeal.Read Cert.Ternary

/-- The first weight stage at an entry: the indicator, minus the weight, plus the weight. -/
theorem stage_pos (w : FVec Ideal S4096x4096 .f32) (i : S4096x4096.Idx) :
    val_main_v4 (F := Ideal) w i = (pos (w i) - w i) + w i := by
  rw [val_main_v4_apply, val_main_v3_apply, val_main_v2_apply, val_main_v1_apply, val_main_v0_apply, val_main_cst_apply,
    ← pos_of_unsigned (w i), ← Ideal.ofBits_zero_f32]
  rfl

/-- The second weight stage at an entry: the same function of the other weight matrix. -/
theorem stage_neg (w : FVec Ideal S4096x4096 .f32) (i : S4096x4096.Idx) :
    val_main_v9 (F := Ideal) w i = (pos (w i) - w i) + w i := by
  rw [val_main_v9_apply, val_main_v8_apply, val_main_v7_apply, val_main_v6_apply, val_main_v5_apply, val_main_cst_0_apply,
    ← pos_of_unsigned (w i), ← Ideal.ofBits_zero_f32]
  rfl

/-- The reference's result is the layer, when every entry of the inputs is a real number. -/
theorem result_eq (x : FVec Ideal S8192x4096 .f32) (wp wn : FVec Ideal S4096x4096 .f32)
    (hx : ∀ i, ∃ r : ℝ, x i = r) (hp : ∀ i, ∃ r : ℝ, wp i = r) (hn : ∀ i, ∃ r : ℝ, wn i = r) :
    val_main_v12 (F := Ideal) x wp wn = layer x wp wn := by
  funext j
  obtain ⟨t, o, rfl⟩ : ∃ (t : Fin 8192) (o : Fin 4096), j = ix2 t o := ⟨j 0, j 1, eq_ix2 j⟩
  have el : ∀ k : Fin 4096, lidx_main_v10 (ix2 t o) k = ix2 t k := fun k => funext fun a => Fin.ext (by
    match a with
    | ⟨0, _⟩ => rfl
    | ⟨1, _⟩ => rfl)
  have er : ∀ k : Fin 4096, ridx_main_v10 (ix2 t o) k = ix2 o k := fun k => funext fun a => Fin.ext (by
    match a with
    | ⟨0, _⟩ => rfl
    | ⟨1, _⟩ => rfl)
  have el' : ∀ k : Fin 4096, lidx_main_v11 (ix2 t o) k = ix2 t k := fun k => funext fun a => Fin.ext (by
    match a with
    | ⟨0, _⟩ => rfl
    | ⟨1, _⟩ => rfl)
  have er' : ∀ k : Fin 4096, ridx_main_v11 (ix2 t o) k = ix2 o k := fun k => funext fun a => Fin.ext (by
    match a with
    | ⟨0, _⟩ => rfl
    | ⟨1, _⟩ => rfl)
  rw [val_main_v12_apply, val_main_v10_apply, val_main_v11_apply]
  simp only [el, er, el', er', stage_pos, stage_neg]
  exact two_contractions x wp wn hx hp hn t o

end Cert.ReferenceIdeal.Layer

end
-- ==== Proof.Pieces.lean ====
/-
  What one grid point leaves behind, as a value.

  At a grid point the body holds the activation block x (512 × 1024), the two weight blocks w⁺, w⁻ (512 × 1024 each)
  and the accumulator (512 × 512). Write update w⁺ w⁻ x acc for the accumulator plus the block product of x against
  pos w⁺ − pos w⁻, and zero for the all-zero block. Then

    · at the first step of a run of four (k = 0) the accumulator is left at  update w⁺ w⁻ x zero;
    · at the middle steps (k = 1, 2) it is left at  update w⁺ w⁻ x acc,  acc what the step before left;
    · at the last step (k = 3) it is left at  update w⁺ w⁻ x acc  too, and the output block receives the same value.

  These hold for any float values: they only say which stores cover which loads.
-/
import proofs.«170125_j25451976196807_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

/-- Both offsets of every access in the body are zero. -/
theorem origin : (![0, 0] : Fin 2 → Nat) = fun _ => 0 := funext fun a => by fin_cases a <;> rfl

/-- A middle step: the accumulator ends at the update of what it held. -/
theorem scratch_mid (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : ¬cond0_1 i)
    (x0 x1 x2 : Vec F S512x1024 .f32) (xs0 : Vec F S512x512 .f32) :
    sout0_B_0 c i arg3 harg3 arg4 harg4 arg5 harg5 arg6 harg6 arg7 harg7 hc0 hc1 x0 x1 x2 xs0 = k0_pay2 x1 x2 x0 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg5.read_unread, harg7.read_unread,
    View.ld_unit_zero (S := S512x1024) origin, View.ld_unit_zero (S := S512x512) origin]

/-- The first step: the accumulator is zeroed, read back, and ends at the update of zero. -/
theorem scratch_first (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : cond0_0 i) (hc1 : ¬cond0_1 i)
    (x0 x1 x2 : Vec F S512x1024 .f32) :
    sout0_A_0 c i arg3 harg3 arg4 harg4 arg5 harg5 arg6 harg6 arg7 harg7 hc0 hc1 x0 x1 x2 = k0_pay2 x1 x2 x0 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x512) origin, View.readCov_unit_zero (S := S512x512) _ origin]
  simp only [View.readAt_eq_ld, harg3.read_unread, harg4.read_unread, harg5.read_unread,
    View.ld_unit_zero (S := S512x1024) origin, View.ld_unit_zero (S := S512x512) origin]

/-- The last step, the accumulator: the update of what it held. -/
theorem scratch_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 x2 : Vec F S512x1024 .f32) (xs0 : Vec F S512x512 .f32) :
    sout0_C_0 c i arg3 harg3 arg4 harg4 arg5 harg5 arg6 harg6 arg7 harg7 hc0 hc1 x0 x1 x2 xs0 = k0_pay2 x1 x2 x0 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.ld_unit_zero (S := S512x1024) origin, View.ld_unit_zero (S := S512x512) origin]

/-- The last step, the output block: the accumulator's final value, read back and stored. -/
theorem out_last (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S512x512 .f32) (harg7 : arg7.IsWhole) (hc0 : ¬cond0_0 i) (hc1 : cond0_1 i)
    (x0 x1 x2 : Vec F S512x1024 .f32) (xs0 : Vec F S512x512 .f32) :
    out0_C_3 c i arg3 harg3 arg4 harg4 arg5 harg5 arg6 harg6 arg7 harg7 hc0 hc1 x0 x1 x2 xs0 = k0_pay2 x1 x2 x0 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.readCov_unit_zero (S := S512x512) _ origin,
    View.ld_unit_zero (S := S512x1024) origin, View.ld_unit_zero (S := S512x512) origin]

end Cert.KernelIdeal.Step

end
-- ==== Proof.BlockProduct.lean ====
/-
  One step's update, entry by entry, on the extended reals.

  For blocks x, w⁺, w⁻ of 512 × 1024 and an accumulator block acc of 512 × 512, the step's update at row p, column q is

      acc p q + ∑ l < 1024, x p l · (pos (w⁺ q l) − pos (w⁻ q l)),

  and the zero block is 0 everywhere. The comparison's bit, widened and converted, is the indicator; the change of
  float format is the identity; the block product into a zero accumulator is the plain sum over the contracted axis,
  which both operands carry as their second axis.
-/
import proofs.«170125_j25451976196807_1_alg».proof.Proof.Spec
import proofs.«170125_j25451976196807_1_alg».proof.Proof.Gen.KernelIdeal
import proofs.«170125_j25451976196807_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Step

open Cert.KernelIdeal Cert.KernelIdeal.Gen Cert.Ternary

/-! ## Where the block product reads its operands -/

/-- The left operand is read at the output's row … -/
theorem lhs_row (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- … and at the contraction index; -/
theorem lhs_col (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- the right operand at the output's column … -/
theorem rhs_row (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- … and at the contraction index. -/
theorem rhs_col (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-! ## The two payloads at an entry -/

/-- The reset block is zero everywhere. -/
theorem zero_apply (j : S512x512.Idx) : k0_pay1 (F := Ideal) j = 0 := by
  unfold k0_pay1
  rw [shapeCast_self]
  exact Ideal.ofBits_zero_f32

/-- The update at row `p`, column `q`. -/
theorem update_apply (wp wn x : Vec Ideal S512x1024 .f32) (acc : Vec Ideal S512x512 .f32) (p q : Fin 512) :
    k0_pay2 (F := Ideal) wp wn x acc (ix2 p q)
      = acc (ix2 p q) + ∑ l : Fin 1024, x (ix2 p l) * (pos (wp (ix2 q l)) - pos (wn (ix2 q l))) := by
  unfold k0_pay2
  rw [shapeCast_self]
  refine congrArg (acc (ix2 p q) + ·) ?_
  refine (Ideal.matmul_constant_zero_apply dot_S512x1024_S512x1024_S512x512_1_1_0_0_n_n none _ _ (ix2 p q)).trans ?_
  rw [← Equiv.sum_comp (contrEquiv1 dot_S512x1024_S512x1024_S512x512_1_1_0_0_n_n 1024 rfl rfl).symm]
  refine Finset.sum_congr rfl fun l _ => ?_
  have hl := contrEquiv1_symm_val dot_S512x1024_S512x1024_S512x512_1_1_0_0_n_n 1024 rfl rfl l
  have el : dot_S512x1024_S512x1024_S512x512_1_1_0_0_n_n.lhsIdx (ix2 p q) ((contrEquiv1 dot_S512x1024_S512x1024_S512x512_1_1_0_0_n_n 1024 rfl rfl).symm l) = ix2 p l := funext fun a => Fin.ext (by
    match a with
    | ⟨0, _⟩ => exact lhs_row _ _
    | ⟨1, _⟩ => exact (lhs_col _ _).trans hl)
  have er : dot_S512x1024_S512x1024_S512x512_1_1_0_0_n_n.rhsIdx (ix2 p q) ((contrEquiv1 dot_S512x1024_S512x1024_S512x512_1_1_0_0_n_n 1024 rfl rfl).symm l) = ix2 q l := funext fun a => Fin.ext (by
    match a with
    | ⟨0, _⟩ => exact rhs_row _ _
    | ⟨1, _⟩ => exact (rhs_col _ _).trans hl)
  rw [el, er, ← pos_of_signed (wp (ix2 q l)), ← pos_of_signed (wn (ix2 q l)), ← Ideal.ofBits_zero_f32]
  rfl

end Cert.KernelIdeal.Step

end
-- ==== Proof.KernelLayer.lean ====
/-
  The kernel's result array is the layer.

  The grid is 16 × 8 × 4, the last axis fastest: point n handles row block n / 32, column block n / 4 mod 8 and
  contraction run n mod 4. A run of four consecutive points 4q … 4q + 3 shares its row and column block; the
  accumulator is zeroed at 4q and after point 4q + s holds

      0 + ∑ s' ≤ s, (the block product of run s'),

  and at 4q + 3 that value is written to output block (row block, column block). Entry by entry the four block
  products are the four runs of 1024 terms of the layer's sum over the contraction axis, so the block written is the
  layer's block. Every entry of the result lies in exactly such a block: the 16 × 8 blocks of 512 × 512 tile it.
-/
import proofs.«170125_j25451976196807_1_alg».proof.Proof.Spec
import proofs.«170125_j25451976196807_1_alg».proof.Proof.Pieces
import proofs.«170125_j25451976196807_1_alg».proof.Proof.BlockProduct
import proofs.«170125_j25451976196807_1_alg».proof.Proof.Gen.KernelIdeal.Value
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.KernelIdeal.Value Cert.KernelIdeal.Step Cert.Ternary

variable (m : (ℓ : Loc nD τ sig) → Buf (Elt Ideal) ℓ) (ρ : Dev nD → PrngReg)

/-- The three argument arrays as launched, and the three input blocks at a point, at their literal types. -/
abbrev xs (c : Dev nD) : SX.Idx → EReal := m ((c : Thread nD τ).loc main_arg0)
abbrev ps (c : Dev nD) : SW.Idx → EReal := m ((c : Thread nD τ).loc main_arg1)
abbrev ns (c : Dev nD) : SW.Idx → EReal := m ((c : Thread nD τ).loc main_arg2)
abbrev xblk (c : Dev nD) (t : Fin cfg0.N) : Vec Ideal S512x1024 .f32 := iblk m c 0 t
abbrev pblk (c : Dev nD) (t : Fin cfg0.N) : Vec Ideal S512x1024 .f32 := iblk m c 1 t
abbrev nblk (c : Dev nD) (t : Fin cfg0.N) : Vec Ideal S512x1024 .f32 := iblk m c 2 t

/-- Which block each window is on at point `t`. -/
theorem block_of_point : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 2) = t.val / 32 ∧ win0_3.index t (1 : Fin 2) = t.val / 4 % 8 :=
  (by decide +kernel : ∀ t : Fin grid0.N, _)

/-! ## The input blocks are pieces of the argument arrays -/

theorem xblk_apply (c : Dev nD) (t : Fin cfg0.N) (p : Fin 512) (l : Fin 1024) :
    xblk m c t (ix2 p l) = at2 (xs m c) (512 * (t.val / 32) + p.val) (1024 * (t.val % 4) + l.val) := by
  have hN : t.val < 512 := lt_of_lt_of_eq t.isLt N_0
  obtain ⟨e0, e1, -⟩ := block_of_point t
  rw [at2_of_lt _ _ _ (by have := p.isLt; omega) (by have := l.isLt; omega)]
  show iblk m c 0 t (ix2 p l) = _
  unfold iblk
  rw [View.read_apply]
  refine congrArg (m ((c : Thread nD τ).loc main_arg0)) (funext fun a => Fin.ext ?_)
  match a with
  | ⟨0, _⟩ => show win0_0.index t (0 : Fin 2) * 512 + 1 * p.val = 512 * (t.val / 32) + p.val; rw [e0]; omega
  | ⟨1, _⟩ => show win0_0.index t (1 : Fin 2) * 1024 + 1 * l.val = 1024 * (t.val % 4) + l.val; rw [e1]; omega

theorem pblk_apply (c : Dev nD) (t : Fin cfg0.N) (q : Fin 512) (l : Fin 1024) :
    pblk m c t (ix2 q l) = at2 (ps m c) (512 * (t.val / 4 % 8) + q.val) (1024 * (t.val % 4) + l.val) := by
  have hN : t.val < 512 := lt_of_lt_of_eq t.isLt N_0
  obtain ⟨-, -, e0, e1, -⟩ := block_of_point t
  rw [at2_of_lt _ _ _ (by have := q.isLt; omega) (by have := l.isLt; omega)]
  show iblk m c 1 t (ix2 q l) = _
  unfold iblk
  rw [View.read_apply]
  refine congrArg (m ((c : Thread nD τ).loc main_arg1)) (funext fun a => Fin.ext ?_)
  match a with
  | ⟨0, _⟩ => show win0_1.index t (0 : Fin 2) * 512 + 1 * q.val = 512 * (t.val / 4 % 8) + q.val; rw [e0]; omega
  | ⟨1, _⟩ => show win0_1.index t (1 : Fin 2) * 1024 + 1 * l.val = 1024 * (t.val % 4) + l.val; rw [e1]; omega

theorem nblk_apply (c : Dev nD) (t : Fin cfg0.N) (q : Fin 512) (l : Fin 1024) :
    nblk m c t (ix2 q l) = at2 (ns m c) (512 * (t.val / 4 % 8) + q.val) (1024 * (t.val % 4) + l.val) := by
  have hN : t.val < 512 := lt_of_lt_of_eq t.isLt N_0
  obtain ⟨-, -, -, -, e0, e1, -⟩ := block_of_point t
  rw [at2_of_lt _ _ _ (by have := q.isLt; omega) (by have := l.isLt; omega)]
  show iblk m c 2 t (ix2 q l) = _
  unfold iblk
  rw [View.read_apply]
  refine congrArg (m ((c : Thread nD τ).loc main_arg2)) (funext fun a => Fin.ext ?_)
  match a with
  | ⟨0, _⟩ => show win0_2.index t (0 : Fin 2) * 512 + 1 * q.val = 512 * (t.val / 4 % 8) + q.val; rw [e0]; omega
  | ⟨1, _⟩ => show win0_2.index t (1 : Fin 2) * 1024 + 1 * l.val = 1024 * (t.val % 4) + l.val; rw [e1]; omega

/-! ## What one point adds -/

/-- The block product of point `n`, entry by entry, over the argument arrays. -/
def addend (c : Dev nD) (n : Nat) : S512x512.Idx → EReal := fun j =>
  ∑ l : Fin 1024, at2 (xs m c) (512 * (n / 32) + (j 0).val) (1024 * (n % 4) + l.val)
    * (pos (at2 (ps m c) (512 * (n / 4 % 8) + (j 1).val) (1024 * (n % 4) + l.val))
        - pos (at2 (ns m c) (512 * (n / 4 % 8) + (j 1).val) (1024 * (n % 4) + l.val)))

/-- The update at point `t` adds that point's block product to the accumulator. -/
theorem update_point (c : Dev nD) (t : Fin cfg0.N) (acc : Vec Ideal S512x512 .f32) (j : S512x512.Idx) :
    k0_pay2 (F := Ideal) (pblk m c t) (nblk m c t) (xblk m c t) acc j = acc j + addend m c t.val j := by
  obtain ⟨p, q, rfl⟩ : ∃ (p q : Fin 512), j = ix2 p q := ⟨j 0, j 1, eq_ix2 j⟩
  refine (update_apply (pblk m c t) (nblk m c t) (xblk m c t) acc p q).trans ?_
  refine congrArg (acc (ix2 p q) + ·) (Finset.sum_congr rfl fun l _ => ?_)
  rw [xblk_apply m c t p l, pblk_apply m c t q l, nblk_apply m c t q l]

/-- The first point of a run leaves zero plus its block product … -/
theorem step_first (c : Dev nD) (n : Nat) (hb : n < cfg0.N) (h0 : n % 4 = 0) (acc : Vec Ideal S512x512 .f32)
    (j : S512x512.Idx) : scAt0_0 m c n hb acc j = 0 + addend m c n j := by
  have h1 : ¬n % 4 = 3 := by omega
  unfold scAt0_0
  rw [dif_pos h0, dif_neg h1]
  refine (congrFun (scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (xblk m c ⟨n, hb⟩) (pblk m c ⟨n, hb⟩) (nblk m c ⟨n, hb⟩)) j).trans ?_
  refine (update_point m c ⟨n, hb⟩ (k0_pay1 (F := Ideal)) j).trans ?_
  rw [zero_apply]

/-- … and every later point adds its block product to what the point before left. -/
theorem step_next (c : Dev nD) (n : Nat) (hb : n < cfg0.N) (h0 : ¬n % 4 = 0) (acc : Vec Ideal S512x512 .f32)
    (j : S512x512.Idx) : scAt0_0 m c n hb acc j = acc j + addend m c n j := by
  unfold scAt0_0
  by_cases h1 : n % 4 = 3
  · rw [dif_neg h0, dif_pos h1]
    refine (congrFun (scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (xblk m c ⟨n, hb⟩) (pblk m c ⟨n, hb⟩) (nblk m c ⟨n, hb⟩) acc) j).trans ?_
    exact update_point m c ⟨n, hb⟩ acc j
  · rw [dif_neg h0, dif_neg h1]
    refine (congrFun (scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (xblk m c ⟨n, hb⟩) (pblk m c ⟨n, hb⟩) (nblk m c ⟨n, hb⟩) acc) j).trans ?_
    exact update_point m c ⟨n, hb⟩ acc j

/-! ## The accumulator after any point -/

/-- After point `t` the accumulator holds zero plus the block products of its run up to `t`. -/
theorem scratch_after (c : Dev nD) (t : Fin cfg0.N) (j : S512x512.Idx) :
    (outsAt0 m c t.val t.isLt).2 j = 0 + ∑ s ∈ Finset.range (t.val % 4 + 1), addend m c (4 * (t.val / 4) + s) j := by
  have hN : t.val < 512 := lt_of_lt_of_eq t.isLt N_0
  refine (congrFun (soutsAt0_0_eq m c t) j).trans ?_
  exact Pipeline.accAt_add_apply (β := EReal) (fun n h => scAt0_0 m c n h (VS0_0.read (Elt Ideal) VS0_0.junk)) (scAt0_0 m c)
    (fun _ => 0) (addend m c) (4 * (t.val / 4)) 3
    (fun h i => step_first m c _ h (by omega) _ i)
    (fun n h acc i hlt hle => step_next m c n h (by omega) acc i)
    (t.val % 4) (by omega) _ j

/-- At the last point of a run the output block receives the accumulator's value. -/
theorem out_eq_scratch (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (xblk m c t) (pblk m c t) (nblk m c t) _).trans
    (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (xblk m c t) (pblk m c t) (nblk m c t) _).symm

/-! ## From blocks to the array -/

/-- What a point that writes back writes is the layer's block there. -/
theorem flushed_eq (c : Dev nD) (t : Fin cfg0.N) (hf : (cfg0.win 3).flush t = true) :
    (dats m 0 c).flushed 3 t = ((cfg0.win 3).blk t).view.read (Elt Ideal) (layer (xs m c) (ps m c) (ns m c)) := by
  have hN : t.val < 512 := lt_of_lt_of_eq t.isLt N_0
  have h3 : t.val % 4 = 3 := (flush0_3 t).mp hf
  obtain ⟨-, -, -, -, -, -, e0, e1⟩ := block_of_point t
  rw [flushed3, out_eq_scratch m c t h3]
  funext j
  show (outsAt0 m c t.val t.isLt).2 j
    = entry (xs m c) (ps m c) (ns m c) (((cfg0.win 3).blk t).view.emb j 0) (((cfg0.win 3).blk t).view.emb j 1)
  have r0 : ((((cfg0.win 3).blk t).view.emb j 0 : Fin 8192) : Nat) = 512 * (t.val / 32) + (j 0).val := by
    show win0_3.index t (0 : Fin 2) * 512 + 1 * (j 0).val = _; rw [e0]; omega
  have r1 : ((((cfg0.win 3).blk t).view.emb j 1 : Fin 4096) : Nat) = 512 * (t.val / 4 % 8) + (j 1).val := by
    show win0_3.index t (1 : Fin 2) * 512 + 1 * (j 1).val = _; rw [e1]; omega
  have h4 : t.val % 4 + 1 = 4 := by omega
  refine (scratch_after m c t j).trans ?_
  refine Eq.trans ?_ (entry_runs (xs m c) (ps m c) (ns m c) _ _).symm
  rw [zero_add, h4]
  refine Finset.sum_congr rfl fun s hs => ?_
  have hs4 : s < 4 := Finset.mem_range.mp hs
  have a1 : (4 * (t.val / 4) + s) / 32 = t.val / 32 := by omega
  have a2 : (4 * (t.val / 4) + s) % 4 = s := by omega
  have a3 : (4 * (t.val / 4) + s) / 4 % 8 = t.val / 4 % 8 := by omega
  unfold addend
  rw [a1, a2, a3, r0, r1]

/-- An entry of the result lies in point `t`'s block iff each coordinate is in the block's range. -/
theorem mem_blk (t : Fin cfg0.N) (i : S8192x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- The result array after the run is the layer of the argument arrays. -/
theorem final (c : Dev nD) : (dats m 0 c).arrAt 3 cfg0.N = layer (xs m c) (ps m c) (ns m c) :=
  (dats m 0 c).arrAt_eq_of_cover 3 (layer (xs m c) (ps m c) (ns m c)) (flushed_eq m c) fun i => by
    have h0 : (i 0).val < 8192 := (i 0).isLt
    have h1 : (i 1).val < 4096 := (i 1).isLt
    have hlt : ((i 0).val / 512 * 8 + (i 1).val / 512) * 4 + 3 < cfg0.N :=
      lt_of_lt_of_eq (by omega : ((i 0).val / 512 * 8 + (i 1).val / 512) * 4 + 3 < 512) (show cfg0.N = 512 from N_0).symm
    refine ⟨⟨((i 0).val / 512 * 8 + (i 1).val / 512) * 4 + 3, hlt⟩, (flush0_3 _).mpr (by show (((i 0).val / 512 * 8 + (i 1).val / 512) * 4 + 3) % 4 = 3; omega), ?_⟩
    obtain ⟨-, -, -, -, -, -, e0, e1⟩ := block_of_point ⟨((i 0).val / 512 * 8 + (i 1).val / 512) * 4 + 3, hlt⟩
    rw [mem_blk]
    intro a
    match a with
    | ⟨0, _⟩ =>
      show win0_3.index _ (0 : Fin 2) * 512 ≤ (i 0).val ∧ (i 0).val < win0_3.index _ (0 : Fin 2) * 512 + 512
      rw [e0]; dsimp only; omega
    | ⟨1, _⟩ =>
      show win0_3.index _ (1 : Fin 2) * 512 ≤ (i 1).val ∧ (i 1).val < win0_3.index _ (1 : Fin 2) * 512 + 512
      rw [e1]; dsimp only; omega

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v0) = layer (xs m c) (ps m c) (ns m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Layer

end
-- ==== Proof.lean ====
/-
  A ternary linear layer, two ways.

  Inputs: activations x : [8192, 4096] and two weight matrices w⁺, w⁻ : [4096, 4096]. With pos w = 1 for w > 0 and 0
  otherwise, the layer is  y t o = ∑ i, x t i · (pos (w⁺ o i) − pos (w⁻ o i)).

  The kernel forms the ternary matrix pos w⁺ − pos w⁻ block by block and contracts x against it, accumulating over
  four runs of the contraction axis into a 512 × 512 block that is written out after the fourth run. The reference
  forms (pos w − w) + w for each weight matrix, contracts x against each and subtracts.

  Over the extended reals, with every input entry finite, both are the layer: (b − w) + w = b for real w, a
  difference of two finite contractions is the contraction of the difference, and a sum over 4096 terms is the sum of
  its four runs of 1024 in any grouping. Finiteness is exactly what the precondition grants, and it is used only on
  the reference's side; the kernel's side is the layer for all extended-real inputs.

  The three frame claims are the generated frames (the reference's: its run, with the result dropped). The
  idealization rewrote nothing, so the preservation claim is trivial.
-/
import proofs.«170125_j25451976196807_1_alg».proof.Defs
import proofs.«170125_j25451976196807_1_alg».proof.Proof.Gen.Kernel
import proofs.«170125_j25451976196807_1_alg».proof.Proof.Gen.Kernel.Skeleton
import proofs.«170125_j25451976196807_1_alg».proof.Proof.Gen.Kernel.Launch
import proofs.«170125_j25451976196807_1_alg».proof.Proof.Gen.Kernel.Points
import proofs.«170125_j25451976196807_1_alg».proof.Proof.Gen.Kernel.Frame
import proofs.«170125_j25451976196807_1_alg».proof.Proof.Gen.KernelIdeal
import proofs.«170125_j25451976196807_1_alg».proof.Proof.Gen.KernelIdeal.Skeleton
import proofs.«170125_j25451976196807_1_alg».proof.Proof.Gen.KernelIdeal.Launch
import proofs.«170125_j25451976196807_1_alg».proof.Proof.Gen.KernelIdeal.Points
import proofs.«170125_j25451976196807_1_alg».proof.Proof.Gen.KernelIdeal.Frame
import proofs.«170125_j25451976196807_1_alg».proof.Proof.Gen.ReferenceIdeal
import proofs.«170125_j25451976196807_1_alg».proof.Proof.Gen.Pre_finite_inputs
import proofs.«170125_j25451976196807_1_alg».proof.Proof.Gen.KernelIdeal.Value
import proofs.«170125_j25451976196807_1_alg».proof.Proof.Gen.ReferenceIdeal.Run
import proofs.«170125_j25451976196807_1_alg».proof.Proof.Gen.ReferenceIdeal.Read
import proofs.«170125_j25451976196807_1_alg».proof.Proof.Finite
import proofs.«170125_j25451976196807_1_alg».proof.Proof.RefLayer
import proofs.«170125_j25451976196807_1_alg».proof.Proof.KernelLayer
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- On finite inputs the kernel's result array and the reference's result are both the layer of the arguments. -/
theorem algebraic : Cert.algebraic_KernelIdeal_ReferenceIdeal := by
  intro m ρ m' ρ' hpre hagree
  refine ⟨fun c => Cert.Ternary.layer (Cert.KernelIdeal.Layer.xs m c) (Cert.KernelIdeal.Layer.ps m c) (Cert.KernelIdeal.Layer.ns m c),
    Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hp, hn⟩ := Cert.Ternary.Finite.reals_of_pre _ _ _ (hpre c)
  rw [Cert.ReferenceIdeal.Read.val_main_v12_eq, (hagree c).1, (hagree c).2.1, (hagree c).2.2]
  exact Cert.ReferenceIdeal.Layer.result_eq _ _ _ hx hp hn

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
